-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1x1024 : Shape := ⟨3, ![16384, 1, 1024]⟩
abbrev S4x1024 : Shape := ⟨2, ![4, 1024]⟩
abbrev S_ : Shape := ⟨0, ![]⟩

class Facts : Prop where
  bcast_S_S16384x1x1024 : S_.BroadcastsInDim S16384x1x1024 (![] : Fin 0 → Fin S16384x1x1024.rank)
  reducesTo_S16384x1x1024_S_d0_1_2 : S16384x1x1024.ReducesTo [0, 1, 2] S_
  h_S_ : 0 < S_.numel
  bcast_S_S4x1024 : S_.BroadcastsInDim S4x1024 (![] : Fin 0 → Fin S4x1024.rank)
  reducesTo_S4x1024_S_d0_1 : S4x1024.ReducesTo [0, 1] S_

variable [Facts]

def fn {F : FTy → Type} [FloatOps F] (main_arg0 : FVec F S16384x1x1024 .f32) (main_arg1 : FVec F S4x1024 .f32) (main_arg2 : FVec F S4x1024 .f32) : IVec S_ 1 :=
  let main_v0 : FVec F S16384x1x1024 .f32 := Host.absf main_arg0
  let main_cst : FVec F S_ .f32 := constant S_ .f32 0x7F800000#32
  let main_v1 : FVec F S16384x1x1024 .f32 := broadcastInDim S16384x1x1024 ![] bcast_S_S16384x1x1024 main_cst
  let main_v2 : IVec S16384x1x1024 1 := cmpf .olt main_v0 main_v1
  let main_c : IVec S_ 1 := constantI S_ 1 1#1
  let main_v3 : IVec S_ 1 := (fun x v => Host.reduce IntOp.andi x v reducesTo_S16384x1x1024_S_d0_1_2 h_S_) main_v2 main_c
  let main_v4 : FVec F S4x1024 .f32 := Host.absf main_arg1
  let main_cst_0 : FVec F S_ .f32 := constant S_ .f32 0x7F800000#32
  let main_v5 : FVec F S4x1024 .f32 := broadcastInDim S4x1024 ![] bcast_S_S4x1024 main_cst_0
  let main_v6 : IVec S4x1024 1 := cmpf .olt main_v4 main_v5
  let main_c_1 : IVec S_ 1 := constantI S_ 1 1#1
  let main_v7 : IVec S_ 1 := (fun x v => Host.reduce IntOp.andi x v reducesTo_S4x1024_S_d0_1 h_S_) main_v6 main_c_1
  let main_v8 : IVec S_ 1 := andi main_v3 main_v7
  let main_v9 : FVec F S4x1024 .f32 := Host.absf main_arg2
  let main_cst_2 : FVec F S_ .f32 := constant S_ .f32 0x7F800000#32
  let main_v10 : FVec F S4x1024 .f32 := broadcastInDim S4x1024 ![] bcast_S_S4x1024 main_cst_2
  let main_v11 : IVec S4x1024 1 := cmpf .olt main_v9 main_v10
  let main_c_3 : IVec S_ 1 := constantI S_ 1 1#1
  let main_v12 : IVec S_ 1 := (fun x v => Host.reduce IntOp.andi x v reducesTo_S4x1024_S_d0_1 h_S_) main_v11 main_c_3
  let main_v13 : IVec S_ 1 := andi main_v8 main_v12
  main_v13
-- ==== Kernel.lean ====
abbrev S16384x1x1024 : Shape := ⟨3, ![16384, 1, 1024]⟩
abbrev S4x1024 : Shape := ⟨2, ![4, 1024]⟩
abbrev S16384x1024 : Shape := ⟨2, ![16384, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1x1024, .f32⟩
  | .hbm, ⟨1, _⟩ => ⟨S4x1024, .f32⟩
  | .hbm, ⟨2, _⟩ => ⟨S4x1024, .f32⟩
  | .hbm, ⟨3, _⟩ => ⟨S16384x1024, .f32⟩
  | .hbm, ⟨4, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S4x1024, .f32⟩
  | .local _ .vmem, ⟨3, _⟩ => ⟨S4x1024, .f32⟩
  | .local _ .vmem, ⟨4, _⟩ => ⟨S1024x1024, .f32⟩
  | .local _ .vmem, ⟨5, _⟩ => ⟨S1024x1024, .f32⟩
  | _, _ => ⟨S16384x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16384x1x1024_S16384x1024 : S16384x1x1024.ShapeCasts S16384x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  inb_S4x1024_S1x1024_0_0 : ∀ a, (![0, 0] : Fin 2 → Nat) a + S1x1024.size a ≤ S4x1024.size a
  h_S1x1024 : 0 < S1x1024.numel
  shapeCasts_S1x1024_S1024 : S1x1024.ShapeCasts S1024
  shapeCasts_S1024_S1x1024 : S1024.ShapeCasts S1x1024
  broadcasts_S1x1024_S1024x1024 : S1x1024.Broadcasts S1024x1024
  broadcasts_S1024x1_S1024x1024 : S1024x1.Broadcasts S1024x1024
  inb_S4x1024_S1x1024_1_0 : ∀ a, (![1, 0] : Fin 2 → Nat) a + S1x1024.size a ≤ S4x1024.size a
  inb_S4x1024_S1x1024_2_0 : ∀ a, (![2, 0] : Fin 2 → Nat) a + S1x1024.size a ≤ S4x1024.size a
  inb_S4x1024_S1x1024_3_0 : ∀ a, (![3, 0] : Fin 2 → Nat) a + S1x1024.size a ≤ S4x1024.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x1024.size a ≤ S4x1024.size a
  hwx0_1 : ∀ i : grid0.Coords, EltTy.bits .f32 = 32 ∨ (Rect.block (s := S4x1024) S4x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1024.size a ≤ S4x1024.size a
  hwx0_2 : ∀ i : grid0.Coords, EltTy.bits .f32 = 32 ∨ (Rect.block (s := S4x1024) S4x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .f32 = 32 ∨ (Rect.block (s := S16384x1024) S1024x1024.size (cc0_transform_3 i) (hinb0_3 i)).WholeWords (EltTy.packing .f32)

variable [Facts₀]

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1x1024 : Shape := ⟨3, ![16384, 1, 1024]⟩
abbrev S4x1024 : Shape := ⟨2, ![4, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024 : Shape := ⟨1, ![1024]⟩

abbrev nBuf : Space → Nat
  | .hbm => 68
  | .vmem => 0
  | .smem => 0
  | _ => 0

abbrev bufTy : (tb : Table) → Fin (tcTables nBuf tb) → BufTy
  | .hbm, ⟨0, _⟩ => ⟨S16384x1x1024, .f32⟩
  | .hbm, ⟨1, _⟩ => ⟨S4x1024, .f32⟩
  | .hbm, ⟨2, _⟩ => ⟨S4x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S1x1024, .f32⟩
  | .hbm, ⟨47, _⟩ => ⟨S1024, .f32⟩
  | .hbm, ⟨48, _⟩ => ⟨S1x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S1x1024, .f32⟩
  | .hbm, ⟨56, _⟩ => ⟨S1024, .f32⟩
  | .hbm, ⟨57, _⟩ => ⟨S1x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S1x1024, .f32⟩
  | .hbm, ⟨63, _⟩ => ⟨S1024, .f32⟩
  | .hbm, ⟨64, _⟩ => ⟨S1x1024, .f32⟩
  | .hbm, ⟨65, _⟩ => ⟨S16384x1024, .f32⟩
  | .hbm, ⟨66, _⟩ => ⟨S16384x1024, .f32⟩
  | .hbm, ⟨67, _⟩ => ⟨S16384x1024, .f32⟩
  | _, _ => ⟨S16384x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_1 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_cst_2 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩

abbrev nD : Nat := 1
abbrev τ : Topo := Topo.v7x

variable {F : FTy → Type} [FloatOps F]

class Facts₀ : Prop where
  shapeCasts_S16384x1x1024_S16384x1024 : S16384x1x1024.ShapeCasts S16384x1024
  reducesTo_S16384x1024_S16384_d1 : S16384x1024.ReducesTo [1] S16384
  h_S_ : 0 < S_.numel
  bcast_S16384_S16384x1_0 : S16384.BroadcastsInDim S16384x1 (![0] : Fin 1 → Fin S16384x1.rank)
  slices_S4x1024_S1x1024_0_0 : S4x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S16384x1_S16384x1024_0_1 : S16384x1.BroadcastsInDim S16384x1024 (![0, 1] : Fin 2 → Fin S16384x1024.rank)
  slices_S4x1024_S1x1024_1_0 : S4x1024.Slices ![1, 0] S1x1024
  slices_S4x1024_S1x1024_2_0 : S4x1024.Slices ![2, 0] S1x1024
  slices_S4x1024_S1x1024_3_0 : S4x1024.Slices ![3, 0] S1x1024

variable [Facts₀]

class Facts : Prop extends Facts₀ where

variable [Facts]
-- ==== Proof.CrossSpec.lean ====
/-
  The cross network on one row, over the extended reals.

  A row `x` of the input (1024 entries) is carried through four layers.  Layer `l` takes the current
  row `cur`, sums its entries, and returns, entry by entry,
      (sum of cur) * (w l c * x c) + b l c + x c.
  The first layer starts from `cur = x`.  Every row of the result depends on the same row of the input
  only, so the whole array is this row map applied row by row (`crossAll`).
-/
import Idealize.ShloMosaic.PureOps.Ideal
import Idealize.ShloMosaic.Lib.ValueIdx

noncomputable section

namespace Cert.Cross

open Idealize.ShloMosaic Idealize.ShloMosaic.ValueIdx

/-- One layer on a row: the sum of the current row scales `w * x`, then the bias and the input row are added. -/
def step (xr wi bi cur : Fin 1024 → EReal) : Fin 1024 → EReal :=
  fun c => (∑ k : Fin 1024, cur k) * (wi c * xr c) + bi c + xr c

/-- The four layers in order, the first one fed the input row itself. -/
def rowMap (xr : Fin 1024 → EReal) (w b : Fin 4 → Fin 1024 → EReal) : Fin 1024 → EReal :=
  step xr (w 3) (b 3) (step xr (w 2) (b 2) (step xr (w 1) (b 1) (step xr (w 0) (b 0) xr)))

/-- The whole result: entry (r, c) is entry c of the row map of row r. -/
def crossAll (x : (⟨2, ![16384, 1024]⟩ : Shape).Idx → EReal) (w b : (⟨2, ![4, 1024]⟩ : Shape).Idx → EReal) :
    (⟨2, ![16384, 1024]⟩ : Shape).Idx → EReal :=
  fun i => rowMap (fun k => x (ix2 (i 0) k)) (fun l k => w (ix2 l k)) (fun l k => b (ix2 l k)) (i 1)

theorem crossAll_apply (x : (⟨2, ![16384, 1024]⟩ : Shape).Idx → EReal) (w b : (⟨2, ![4, 1024]⟩ : Shape).Idx → EReal)
    (r : Fin 16384) (c : Fin 1024) :
    crossAll x w b (ix2 r c) = rowMap (fun k => x (ix2 r k)) (fun l k => w (ix2 l k)) (fun l k => b (ix2 l k)) c := rfl

end Cert.Cross

end
-- ==== Proof.TileLayer.lean ====
/-
  One layer of the cross network computed on a tile of 1024 whole rows, read entry by entry.

  On a tile the layer is written with vector operations: the current tile is summed along its lanes,
  the sums are laid out as a column and spread over the lanes; the weight row and the bias row are spread
  over the rows.  Read at entry (p, q) this is the row step of row p at entry q: the lane sum at p is the sum
  of row p, the spread column reads its row's sum, the spread rows read their lane's entry.
-/
import Idealize.ShloMosaic.PureOps.Ideal.Laws
import Idealize.ShloMosaic.Lib.ValueIdx
import Idealize.ShloMosaic.Lib.ValueLayout
import Idealize.ShloMosaic.Lib.Pipeline.Value
import proofs.«176517_j20693152432611_1_alg».proof.Proof.CrossSpec

noncomputable section

namespace Cert.Cross

open Idealize.ShloMosaic Idealize.ShloMosaic.ValueIdx

abbrev Tile : Shape := ⟨2, ![1024, 1024]⟩
abbrev Row : Shape := ⟨2, ![1, 1024]⟩
abbrev Lane : Shape := ⟨1, ![1024]⟩
abbrev Col : Shape := ⟨2, ![1024, 1]⟩

/-- One layer on a tile, as the vector operations compute it. -/
def tileLayer (hr : Tile.Reduces [1] Lane) (hc : Lane.ShapeCasts Col) (hb : Col.Broadcasts Tile)
    (h1 : Row.ShapeCasts Lane) (h2 : Lane.ShapeCasts Row) (hbr : Row.Broadcasts Tile)
    (x0 : FVec Ideal Tile .f32) (wr br : FVec Ideal Row .f32) (cur : FVec Ideal Tile .f32) : FVec Ideal Tile .f32 :=
  addf (addf (mulf (broadcastTo Tile (shapeCast Col (multiReduction .add [1] Lane cur 0x00000000#32 hr (.inl rfl) rfl) hc) hb)
      (mulf (broadcastTo Tile (shapeCast Row (shapeCast Lane wr h1) h2) hbr) x0))
    (broadcastTo Tile (shapeCast Row (shapeCast Lane br h1) h2) hbr)) x0

/-- The lane sums, laid out as a column and spread over the lanes, read at (p, q): the sum of row p. -/
theorem spreadSum_apply (hr : Tile.Reduces [1] Lane) (hc : Lane.ShapeCasts Col) (hb : Col.Broadcasts Tile)
    (cur : FVec Ideal Tile .f32) (p q : Fin 1024) :
    broadcastTo Tile (shapeCast Col (multiReduction .add [1] Lane cur 0x00000000#32 hr (.inl rfl) rfl) hc) hb (ix2 p q)
      = ∑ k : Fin 1024, cur (ix2 p k) := by
  refine (broadcastTo_apply _ hb (ix2 p q) (ix2 p (0 : Fin 1)) (fun a => ?_)).trans ?_
  · match a with
    | ⟨0, _⟩ => show p.val = if (1024 : Nat) = 1 then 0 else p.val; rw [if_neg (by decide)]
    | ⟨1, _⟩ => show 0 = if (1 : Nat) = 1 then 0 else q.val; rw [if_pos rfl]
  refine (shapeCast_apply _ hc (ix2 p (0 : Fin 1)) (ix1 p) (by
    rw [Shape.rowMajor_val_one, Shape.rowMajor_val_two]; show p.val = p.val * 1 + 0; omega)).trans ?_
  refine (Ideal.multiReduction_add_single cur _ hr _ _ (ix1 p)).trans ?_
  exact Finset.sum_congr rfl fun k _ => congrArg cur (funext fun a => Fin.ext (by
    match a with | ⟨0, _⟩ => rfl | ⟨1, _⟩ => rfl))

/-- A row vector, passed through a flat vector and back and spread over the rows, read at (p, q): its entry q. -/
theorem spreadRow_apply (h1 : Row.ShapeCasts Lane) (h2 : Lane.ShapeCasts Row) (hbr : Row.Broadcasts Tile)
    (v : FVec Ideal Row .f32) (p q : Fin 1024) :
    broadcastTo Tile (shapeCast Row (shapeCast Lane v h1) h2) hbr (ix2 p q) = v (ix2 (0 : Fin 1) q) := by
  refine (broadcastTo_1b_ab_apply _ hbr p q).trans ?_
  refine (shapeCast_a_1a_apply _ h2 0 q).trans ?_
  exact shapeCast_1a_a_apply v h1 q

/-- The tile layer at entry (p, q) is the row step of row p at q. -/
theorem tileLayer_apply (hr : Tile.Reduces [1] Lane) (hc : Lane.ShapeCasts Col) (hb : Col.Broadcasts Tile)
    (h1 : Row.ShapeCasts Lane) (h2 : Lane.ShapeCasts Row) (hbr : Row.Broadcasts Tile)
    (x0 : FVec Ideal Tile .f32) (wr br : FVec Ideal Row .f32) (cur : FVec Ideal Tile .f32) (p q : Fin 1024) :
    tileLayer hr hc hb h1 h2 hbr x0 wr br cur (ix2 p q)
      = step (fun k => x0 (ix2 p k)) (fun k => wr (ix2 (0 : Fin 1) k)) (fun k => br (ix2 (0 : Fin 1) k))
          (fun k => cur (ix2 p k)) q := by
  show (broadcastTo Tile (shapeCast Col (multiReduction .add [1] Lane cur 0x00000000#32 hr (.inl rfl) rfl) hc) hb (ix2 p q))
        * ((broadcastTo Tile (shapeCast Row (shapeCast Lane wr h1) h2) hbr (ix2 p q)) * x0 (ix2 p q))
        + (broadcastTo Tile (shapeCast Row (shapeCast Lane br h1) h2) hbr (ix2 p q)) + x0 (ix2 p q) = _
  rw [spreadSum_apply hr hc hb cur p q, spreadRow_apply h1 h2 hbr wr p q, spreadRow_apply h1 h2 hbr br p q]
  rfl

/-- So row p of the tile layer is the row step of row p. -/
theorem tileLayer_row (hr : Tile.Reduces [1] Lane) (hc : Lane.ShapeCasts Col) (hb : Col.Broadcasts Tile)
    (h1 : Row.ShapeCasts Lane) (h2 : Lane.ShapeCasts Row) (hbr : Row.Broadcasts Tile)
    (x0 : FVec Ideal Tile .f32) (wr br : FVec Ideal Row .f32) (cur : FVec Ideal Tile .f32) (p : Fin 1024) :
    (fun q => tileLayer hr hc hb h1 h2 hbr x0 wr br cur (ix2 p q))
      = step (fun k => x0 (ix2 p k)) (fun k => wr (ix2 (0 : Fin 1) k)) (fun k => br (ix2 (0 : Fin 1) k))
          (fun k => cur (ix2 p k)) :=
  funext fun q => tileLayer_apply hr hc hb h1 h2 hbr x0 wr br cur p q

end Cert.Cross

end
-- ==== Proof.KernelValue.lean ====
/-
  What the kernel leaves in its result array: the cross network applied row by row.

  The grid has 16 points; point t works on rows 1024 t … 1024 t + 1023 of the (reshaped) input and on the
  whole weight and bias arrays, and writes the same rows of the result.  The body's arithmetic is four tile
  layers, the first fed the input tile; layer l reads row l of the weights and of the biases.  Because a tile
  holds whole rows, row p of what the body leaves is the row map of row p of the tile.  Reading the tile's rows
  as rows of the array, every point writes its rows of `crossAll`, and the 16 row blocks cover the array.
-/
import proofs.«176517_j20693152432611_1_alg».proof.Proof.Gen.KernelIdeal.Value
import proofs.«176517_j20693152432611_1_alg».proof.Proof.TileLayer
import Idealize.ShloMosaic.Lib.Pipeline.Value
import Idealize.ShloMosaic.Lib.StableHlo.Run

noncomputable section

namespace Cert.KernelIdeal.TileValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.Cross

variable (m : (ℓ : Loc nD τ sig) → Buf (Elt Ideal) ℓ) (ρ : Dev nD → PrngReg)

theorem hz : (![0, 0] : Fin 2 → Nat) = fun _ => 0 := funext fun a => by fin_cases a <;> rfl

/-! ## The body's arithmetic -/

/-- The stored value is four tile layers over the loaded tile: layer l uses the l-th loaded weight row and bias row. -/
theorem pay_layers (P0 : Vec Ideal S1024x1024 .f32) (P1 P2 P3 P4 P5 P6 P7 P8 : Vec Ideal S1x1024 .f32) :
    k0_pay1 (k0_pay2 P0) (k0_pay3 P6) (k0_pay4 P0 P5) (k0_pay5 P0 P1 P2 P3 P4) P7 P8
      = tileLayer reduces_S1024x1024_S1024 shapeCasts_S1024_S1024x1 broadcasts_S1024x1_S1024x1024
          shapeCasts_S1x1024_S1024 shapeCasts_S1024_S1x1024 broadcasts_S1x1024_S1024x1024
          (shapeCast S1024x1024 P0 shapeCasts_S1024x1024_S1024x1024) P7 P8
        (tileLayer reduces_S1024x1024_S1024 shapeCasts_S1024_S1024x1 broadcasts_S1024x1_S1024x1024
          shapeCasts_S1x1024_S1024 shapeCasts_S1024_S1x1024 broadcasts_S1x1024_S1024x1024
          (shapeCast S1024x1024 P0 shapeCasts_S1024x1024_S1024x1024) P5 P6
        (tileLayer reduces_S1024x1024_S1024 shapeCasts_S1024_S1024x1 broadcasts_S1024x1_S1024x1024
          shapeCasts_S1x1024_S1024 shapeCasts_S1024_S1x1024 broadcasts_S1x1024_S1024x1024
          (shapeCast S1024x1024 P0 shapeCasts_S1024x1024_S1024x1024) P3 P4
        (tileLayer reduces_S1024x1024_S1024 shapeCasts_S1024_S1024x1 broadcasts_S1024x1_S1024x1024
          shapeCasts_S1x1024_S1024 shapeCasts_S1024_S1x1024 broadcasts_S1x1024_S1024x1024
          (shapeCast S1024x1024 P0 shapeCasts_S1024x1024_S1024x1024) P1 P2
          (shapeCast S1024x1024 P0 shapeCasts_S1024x1024_S1024x1024)))) := rfl

/-- Read at entry (p, q): four row steps on row p of the tile. -/
theorem pay_apply (P0 : Vec Ideal S1024x1024 .f32) (P1 P2 P3 P4 P5 P6 P7 P8 : Vec Ideal S1x1024 .f32) (p q : Fin 1024) :
    k0_pay1 (k0_pay2 P0) (k0_pay3 P6) (k0_pay4 P0 P5) (k0_pay5 P0 P1 P2 P3 P4) P7 P8 (ix2 p q)
      = step (fun k => P0 (ix2 p k)) (fun k => P7 (ix2 (0 : Fin 1) k)) (fun k => P8 (ix2 (0 : Fin 1) k))
          (step (fun k => P0 (ix2 p k)) (fun k => P5 (ix2 (0 : Fin 1) k)) (fun k => P6 (ix2 (0 : Fin 1) k))
          (step (fun k => P0 (ix2 p k)) (fun k => P3 (ix2 (0 : Fin 1) k)) (fun k => P4 (ix2 (0 : Fin 1) k))
          (step (fun k => P0 (ix2 p k)) (fun k => P1 (ix2 (0 : Fin 1) k)) (fun k => P2 (ix2 (0 : Fin 1) k))
            (fun k => P0 (ix2 p k))))) q := by
  rw [pay_layers, shapeCast_self]
  rw [tileLayer_apply, tileLayer_row, tileLayer_row, tileLayer_row]

/-- Row l of a [4, 1024] block, loaded as a [1, 1024] vector, read at its entry k. -/
theorem ld_row0 (W : Vec Ideal S4x1024 .f32) :
    (fun k : Fin 1024 => (View.ld W r0_1 : Vec Ideal S1x1024 .f32) (ix2 (0 : Fin 1) k)) = fun k => W (ix2 (0 : Fin 4) k) :=
  funext fun k => congrArg W (funext fun a => Fin.ext (by
    match a with
    | ⟨0, _⟩ => show 0 + 1 * 0 = 0; rfl
    | ⟨1, _⟩ => show 0 + 1 * k.val = k.val; omega))
theorem ld_row1 (W : Vec Ideal S4x1024 .f32) :
    (fun k : Fin 1024 => (View.ld W r0_2 : Vec Ideal S1x1024 .f32) (ix2 (0 : Fin 1) k)) = fun k => W (ix2 (1 : Fin 4) k) :=
  funext fun k => congrArg W (funext fun a => Fin.ext (by
    match a with
    | ⟨0, _⟩ => show 1 + 1 * 0 = 1; rfl
    | ⟨1, _⟩ => show 0 + 1 * k.val = k.val; omega))
theorem ld_row2 (W : Vec Ideal S4x1024 .f32) :
    (fun k : Fin 1024 => (View.ld W r0_3 : Vec Ideal S1x1024 .f32) (ix2 (0 : Fin 1) k)) = fun k => W (ix2 (2 : Fin 4) k) :=
  funext fun k => congrArg W (funext fun a => Fin.ext (by
    match a with
    | ⟨0, _⟩ => show 2 + 1 * 0 = 2; rfl
    | ⟨1, _⟩ => show 0 + 1 * k.val = k.val; omega))
theorem ld_row3 (W : Vec Ideal S4x1024 .f32) :
    (fun k : Fin 1024 => (View.ld W r0_4 : Vec Ideal S1x1024 .f32) (ix2 (0 : Fin 1) k)) = fun k => W (ix2 (3 : Fin 4) k) :=
  funext fun k => congrArg W (funext fun a => Fin.ext (by
    match a with
    | ⟨0, _⟩ => show 3 + 1 * 0 = 3; rfl
    | ⟨1, _⟩ => show 0 + 1 * k.val = k.val; omega))

/-- What the body leaves in the output tile, entry by entry: the row map of the tile's row. -/
theorem out_apply (X : Vec Ideal S1024x1024 .f32) (W B : Vec Ideal S4x1024 .f32) (p q : Fin 1024) :
    out0_3 X W B (ix2 p q)
      = rowMap (fun k => X (ix2 p k)) (fun l k => W (ix2 l k)) (fun l k => B (ix2 l k)) q := by
  unfold out0_3
  rw [View.canon_unit_zero hz]
  simp only [View.ld_unit_zero (S := S1024x1024) hz]
  rw [pay_apply, ld_row0 W, ld_row0 B, ld_row1 W, ld_row1 B, ld_row2 W, ld_row2 B, ld_row3 W, ld_row3 B]
  rfl

/-! ## The blocks as rows of the arrays -/

/-- The printed index maps over the grid: the input and output tiles sit at block row t, the weight and bias blocks at 0. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 16 := Nat.lt_of_lt_of_eq t.isLt (N_0 : cfg0.N = 16)

/-- Row 1024 t + p of the array, for a point t and a row p of its tile. -/
abbrev arow (t : Fin cfg0.N) (p : Fin 1024) : Fin 16384 := ⟨t.val * 1024 + p.val, by have := t_lt t; omega⟩

/-- Entry (p, k) of the input tile at point t is entry (1024 t + p, k) of the staged input array. -/
theorem xblk_apply (c : Dev nD) (t : Fin cfg0.N) (p k : Fin 1024) :
    (iblk m c 0 t : Vec Ideal S1024x1024 .f32) (ix2 p k)
      = (V m c main_v0 : S16384x1024.Idx → EReal) (ix2 (arow t p) k) := by
  obtain ⟨e0, e1, -⟩ := index_facts t
  unfold iblk
  rw [View.read_apply]
  show V m c main_v0 _ = V m c main_v0 _
  congr 1
  funext a
  apply Fin.ext
  match a with
  | ⟨0, _⟩ => show win0_0.index t 0 * 1024 + 1 * p.val = t.val * 1024 + p.val; rw [e0]; omega
  | ⟨1, _⟩ => show win0_0.index t 1 * 1024 + 1 * k.val = k.val; rw [e1]; omega

/-- The weight block at every point is the whole weight array. -/
theorem wblk_apply (c : Dev nD) (t : Fin cfg0.N) (l : Fin 4) (k : Fin 1024) :
    (iblk m c 1 t : Vec Ideal S4x1024 .f32) (ix2 l k) = (V m c main_arg1 : S4x1024.Idx → EReal) (ix2 l k) := by
  obtain ⟨-, -, e0, e1, -⟩ := index_facts t
  unfold iblk
  rw [View.read_apply]
  show V m c main_arg1 _ = V m c main_arg1 _
  congr 1
  funext a
  apply Fin.ext
  match a with
  | ⟨0, _⟩ => show win0_1.index t 0 * 4 + 1 * l.val = l.val; rw [e0]; omega
  | ⟨1, _⟩ => show win0_1.index t 1 * 1024 + 1 * k.val = k.val; rw [e1]; omega

/-- The bias block at every point is the whole bias array. -/
theorem bblk_apply (c : Dev nD) (t : Fin cfg0.N) (l : Fin 4) (k : Fin 1024) :
    (iblk m c 2 t : Vec Ideal S4x1024 .f32) (ix2 l k) = (V m c main_arg2 : S4x1024.Idx → EReal) (ix2 l k) := by
  obtain ⟨-, -, -, -, e0, e1, -⟩ := index_facts t
  unfold iblk
  rw [View.read_apply]
  show V m c main_arg2 _ = V m c main_arg2 _
  congr 1
  funext a
  apply Fin.ext
  match a with
  | ⟨0, _⟩ => show win0_2.index t 0 * 4 + 1 * l.val = l.val; rw [e0]; omega
  | ⟨1, _⟩ => show win0_2.index t 1 * 1024 + 1 * k.val = k.val; rw [e1]; omega

/-- Entry (p, q) of the output tile at point t lands at entry (1024 t + p, q) of the result array. -/
theorem oblk_emb (t : Fin cfg0.N) (p q : Fin 1024) :
    ((cfg0.win 3).blk t).view.emb (ix2 p q) = (ix2 (arow t p) q : S16384x1024.Idx) := by
  obtain ⟨-, -, -, -, -, -, e0, e1⟩ := index_facts t
  funext a
  apply Fin.ext
  match a with
  | ⟨0, _⟩ => show win0_3.index t 0 * 1024 + 1 * p.val = t.val * 1024 + p.val; rw [e0]; omega
  | ⟨1, _⟩ => show win0_3.index t 1 * 1024 + 1 * q.val = q.val; rw [e1]; omega

/-! ## What each point writes back, and the array after the run -/

/-- The result as one function of the arrays the region finds. -/
abbrev result (c : Dev nD) : S16384x1024.Idx → EReal :=
  crossAll (V m c main_v0) (V m c main_arg1) (V m c main_arg2)

/-- Point t writes back its rows of the result. -/
theorem flushed_eq (c : Dev nD) (t : Fin cfg0.N) :
    (dats m 0 c).flushed 3 t = ((cfg0.win 3).blk t).view.read (Elt Ideal) (result m c) := by
  rw [flushed3]
  funext j
  obtain ⟨p, q, rfl⟩ : ∃ (p q : Fin 1024), j = ix2 p q := ⟨j 0, j 1, eq_ix2 j⟩
  show out0_3 (iblk m c 0 t) (iblk m c 1 t) (iblk m c 2 t) (ix2 p q) = result m c (((cfg0.win 3).blk t).view.emb (ix2 p q))
  refine (out_apply (iblk m c 0 t) (iblk m c 1 t) (iblk m c 2 t) p q).trans ?_
  rw [oblk_emb t p q]
  show _ = rowMap (fun k => V m c main_v0 (ix2 (arow t p) k)) (fun l k => V m c main_arg1 (ix2 l k)) (fun l k => V m c main_arg2 (ix2 l k)) q
  have h0 : (fun k : Fin 1024 => (iblk m c 0 t : Vec Ideal S1024x1024 .f32) (ix2 p k)) = fun k => V m c main_v0 (ix2 (arow t p) k) :=
    funext fun k => xblk_apply m c t p k
  have h1 : (fun (l : Fin 4) (k : Fin 1024) => (iblk m c 1 t : Vec Ideal S4x1024 .f32) (ix2 l k)) = fun l k => V m c main_arg1 (ix2 l k) :=
    funext fun l => funext fun k => wblk_apply m c t l k
  have h2 : (fun (l : Fin 4) (k : Fin 1024) => (iblk m c 2 t : Vec Ideal S4x1024 .f32) (ix2 l k)) = fun l k => V m c main_arg2 (ix2 l k) :=
    funext fun l => funext fun k => bblk_apply m c t l k
  exact congrFun (congr (congr (congrArg rowMap h0) h1) h2) q

/-- An index of the result array is in point t's block iff each coordinate is in the block's range. -/
theorem mem_blk (t : Fin cfg0.N) (i : S16384x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v1).slice (win0_3.rect t)).set ↔ _
  rw [View.set_slice_whole, Rect.mem_set_unit]
  exact Iff.rfl

/-- Every row lies in the block of the point its number divided by 1024 names. -/
theorem cover (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  let t : Fin cfg0.N := ⟨(i 0).val / 1024, by rw [show cfg0.N = 16 from N_0]; omega⟩
  obtain ⟨-, -, -, -, -, -, e0, e1⟩ := index_facts t
  have ht : t.val = (i 0).val / 1024 := rfl
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; rw [e0, ht]; omega
  | ⟨1, _⟩ => show win0_3.index t (1 : Fin 2) * 1024 ≤ (i 1).val ∧ (i 1).val < win0_3.index t (1 : Fin 2) * 1024 + 1024; rw [e1]; omega

/-- The result array after the run. -/
theorem final (c : Dev nD) : (dats m 0 c).arrAt 3 cfg0.N = result m c :=
  (dats m 0 c).arrAt_eq_of_cover 3 (result m c) (fun t _ => flushed_eq m c t) cover

/-- The staged input array is the input argument reshaped to two axes. -/
theorem V_v0 (c : Dev nD) :
    (V m c main_v0 : S16384x1024.Idx → EReal)
      = shapeCast S16384x1024 (m ((c : Thread nD τ).loc main_arg0)) shapeCasts_S16384x1x1024_S16384x1024 := by
  dsimp only [Gen.V, Gen.hostOps0]; after_results; rfl

/-- The run, read: the result array holds the cross network of the reshaped input, the weights and the biases. -/
theorem run : θ_run defs (onTc (τ := τ) (main (F := Ideal))) ⟨m, fun _ => 0, ρ⟩ fun r => ∀ c : Dev nD,
      r.2.mem ((c : Thread nD τ).loc main_v1)
        = crossAll (shapeCast S16384x1024 (m ((c : Thread nD τ).loc main_arg0)) shapeCasts_S16384x1x1024_S16384x1024)
            (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by
      show crossAll (V m c main_v0) (V m c main_arg1) (V m c main_arg2) = _
      rw [V_v0 m c, V_main_arg1 m c, V_main_arg2 m c])), (h c).2⟩)
    (run_blocks m ρ)

end Cert.KernelIdeal.TileValue

end
-- ==== Proof.HostLayer.lean ====
/-
  One layer of the cross network computed on the whole array by array operations, read entry by entry.

  On the whole array the layer sums each row (a reduction from a zero initial value), spreads the row sums
  over the lanes, and spreads one row of the weights and one row of the biases over all rows.  Read at entry
  (r, q) this is the row step of row r at entry q; the zero initial value adds nothing.
-/
import Idealize.ShloMosaic.PureOps.Ideal.Laws
import Idealize.ShloMosaic.Lib.ValueIdx
import Idealize.ShloMosaic.Lib.ValueLayout
import Idealize.ShloMosaic.Lib.Pipeline.Value
import proofs.«176517_j20693152432611_1_alg».proof.Proof.CrossSpec

noncomputable section

namespace Cert.Cross

open Idealize.ShloMosaic Idealize.ShloMosaic.ValueIdx

abbrev Arr : Shape := ⟨2, ![16384, 1024]⟩
abbrev Rows : Shape := ⟨1, ![16384]⟩
abbrev RowsCol : Shape := ⟨2, ![16384, 1]⟩
abbrev One : Shape := ⟨0, ![]⟩
abbrev HRow : Shape := ⟨2, ![1, 1024]⟩
abbrev HLane : Shape := ⟨1, ![1024]⟩

/-- One layer on the whole array, as the array operations compute it. -/
def hostLayer (hred : Arr.ReducesTo [1] Rows) (hS : 0 < One.numel)
    (hb1 : Rows.BroadcastsInDim RowsCol (![0] : Fin 1 → Fin RowsCol.rank))
    (hb2 : RowsCol.BroadcastsInDim Arr (![0, 1] : Fin 2 → Fin Arr.rank))
    (hc : HRow.ShapeCasts HLane) (hb3 : HLane.BroadcastsInDim HRow (![1] : Fin 1 → Fin HRow.rank))
    (hb4 : HRow.BroadcastsInDim Arr (![0, 1] : Fin 2 → Fin Arr.rank))
    (x0 : FVec Ideal Arr .f32) (wr br : FVec Ideal HRow .f32) (cur : FVec Ideal Arr .f32) : FVec Ideal Arr .f32 :=
  addf (addf (mulf (broadcastInDim Arr ![0, 1] hb2 (broadcastInDim RowsCol ![0] hb1
        (Host.reduceAdd cur (constant (F := Ideal) One .f32 0x00000000#32) hred hS)))
      (mulf (broadcastInDim Arr ![0, 1] hb4 (broadcastInDim HRow ![1] hb3 (shapeCast HLane wr hc))) x0))
    (broadcastInDim Arr ![0, 1] hb4 (broadcastInDim HRow ![1] hb3 (shapeCast HLane br hc)))) x0

/-- The row sums spread over the lanes, read at (r, q): the sum of row r. -/
theorem hostSum_apply (hred : Arr.ReducesTo [1] Rows) (hS : 0 < One.numel)
    (hb1 : Rows.BroadcastsInDim RowsCol (![0] : Fin 1 → Fin RowsCol.rank))
    (hb2 : RowsCol.BroadcastsInDim Arr (![0, 1] : Fin 2 → Fin Arr.rank))
    (cur : FVec Ideal Arr .f32) (r : Fin 16384) (q : Fin 1024) :
    broadcastInDim Arr ![0, 1] hb2 (broadcastInDim RowsCol ![0] hb1
        (Host.reduceAdd cur (constant (F := Ideal) One .f32 0x00000000#32) hred hS)) (ix2 r q)
      = ∑ k : Fin 1024, cur (ix2 r k) := by
  refine (broadcastInDim_apply _ hb2 _ (ix2 r q) (ix2 r (0 : Fin 1)) (fun a => ?_)).trans ?_
  · match a with
    | ⟨0, _⟩ => show r.val = if (16384 : Nat) = 1 then 0 else r.val; rw [if_neg (by decide)]
    | ⟨1, _⟩ => show 0 = if (1 : Nat) = 1 then 0 else q.val; rw [if_pos rfl]
  refine (broadcastInDim_apply _ hb1 _ (ix2 r (0 : Fin 1)) (ix1 r) (fun a => ?_)).trans ?_
  · match a with
    | ⟨0, _⟩ => show r.val = if (16384 : Nat) = 1 then 0 else r.val; rw [if_neg (by decide)]
  show Ideal.hostReduceAdd hred cur (Ideal.ofBits .f32 0x00000000#32) (ix1 r) = _
  rw [Ideal.hostReduceAdd_single hred (by decide), Ideal.ofBits_zero_f32, zero_add]
  exact Finset.sum_congr rfl fun k _ => congrArg cur (funext fun a => Fin.ext (by
    match a with | ⟨0, _⟩ => rfl | ⟨1, _⟩ => rfl))

/-- A row vector, flattened, put back as a row and spread over all rows, read at (r, q): its entry q. -/
theorem hostRow_apply (hc : HRow.ShapeCasts HLane) (hb3 : HLane.BroadcastsInDim HRow (![1] : Fin 1 → Fin HRow.rank))
    (hb4 : HRow.BroadcastsInDim Arr (![0, 1] : Fin 2 → Fin Arr.rank))
    (v : FVec Ideal HRow .f32) (r : Fin 16384) (q : Fin 1024) :
    broadcastInDim Arr ![0, 1] hb4 (broadcastInDim HRow ![1] hb3 (shapeCast HLane v hc)) (ix2 r q)
      = v (ix2 (0 : Fin 1) q) := by
  refine (broadcastInDim_apply _ hb4 _ (ix2 r q) (ix2 (0 : Fin 1) q) (fun a => ?_)).trans ?_
  · match a with
    | ⟨0, _⟩ => show 0 = if (1 : Nat) = 1 then 0 else r.val; rw [if_pos rfl]
    | ⟨1, _⟩ => show q.val = if (1024 : Nat) = 1 then 0 else q.val; rw [if_neg (by decide)]
  refine (broadcastInDim_apply _ hb3 _ (ix2 (0 : Fin 1) q) (ix1 q) (fun a => ?_)).trans ?_
  · match a with
    | ⟨0, _⟩ => show q.val = if (1024 : Nat) = 1 then 0 else q.val; rw [if_neg (by decide)]
  exact shapeCast_1a_a_apply v hc q

/-- The host layer at entry (r, q) is the row step of row r at q. -/
theorem hostLayer_apply (hred : Arr.ReducesTo [1] Rows) (hS : 0 < One.numel)
    (hb1 : Rows.BroadcastsInDim RowsCol (![0] : Fin 1 → Fin RowsCol.rank))
    (hb2 : RowsCol.BroadcastsInDim Arr (![0, 1] : Fin 2 → Fin Arr.rank))
    (hc : HRow.ShapeCasts HLane) (hb3 : HLane.BroadcastsInDim HRow (![1] : Fin 1 → Fin HRow.rank))
    (hb4 : HRow.BroadcastsInDim Arr (![0, 1] : Fin 2 → Fin Arr.rank))
    (x0 : FVec Ideal Arr .f32) (wr br : FVec Ideal HRow .f32) (cur : FVec Ideal Arr .f32)
    (r : Fin 16384) (q : Fin 1024) :
    hostLayer hred hS hb1 hb2 hc hb3 hb4 x0 wr br cur (ix2 r q)
      = step (fun k => x0 (ix2 r k)) (fun k => wr (ix2 (0 : Fin 1) k)) (fun k => br (ix2 (0 : Fin 1) k))
          (fun k => cur (ix2 r k)) q := by
  show (broadcastInDim Arr ![0, 1] hb2 (broadcastInDim RowsCol ![0] hb1
          (Host.reduceAdd cur (constant (F := Ideal) One .f32 0x00000000#32) hred hS)) (ix2 r q))
        * ((broadcastInDim Arr ![0, 1] hb4 (broadcastInDim HRow ![1] hb3 (shapeCast HLane wr hc)) (ix2 r q)) * x0 (ix2 r q))
        + (broadcastInDim Arr ![0, 1] hb4 (broadcastInDim HRow ![1] hb3 (shapeCast HLane br hc)) (ix2 r q)) + x0 (ix2 r q) = _
  rw [hostSum_apply hred hS hb1 hb2 cur r q, hostRow_apply hc hb3 hb4 wr r q, hostRow_apply hc hb3 hb4 br r q]
  rfl

/-- So row r of the host layer is the row step of row r. -/
theorem hostLayer_row (hred : Arr.ReducesTo [1] Rows) (hS : 0 < One.numel)
    (hb1 : Rows.BroadcastsInDim RowsCol (![0] : Fin 1 → Fin RowsCol.rank))
    (hb2 : RowsCol.BroadcastsInDim Arr (![0, 1] : Fin 2 → Fin Arr.rank))
    (hc : HRow.ShapeCasts HLane) (hb3 : HLane.BroadcastsInDim HRow (![1] : Fin 1 → Fin HRow.rank))
    (hb4 : HRow.BroadcastsInDim Arr (![0, 1] : Fin 2 → Fin Arr.rank))
    (x0 : FVec Ideal Arr .f32) (wr br : FVec Ideal HRow .f32) (cur : FVec Ideal Arr .f32) (r : Fin 16384) :
    (fun q => hostLayer hred hS hb1 hb2 hc hb3 hb4 x0 wr br cur (ix2 r q))
      = step (fun k => x0 (ix2 r k)) (fun k => wr (ix2 (0 : Fin 1) k)) (fun k => br (ix2 (0 : Fin 1) k))
          (fun k => cur (ix2 r k)) :=
  funext fun q => hostLayer_apply hred hS hb1 hb2 hc hb3 hb4 x0 wr br cur r q

end Cert.Cross

end
-- ==== Proof.RefValue.lean ====
/-
  What the reference computes: the cross network applied row by row.

  The reference reshapes the input to two axes and applies four host layers to it, layer l reading row l of the
  weights and of the biases as a slice.  Each host layer, read at an entry, is the row step of that entry's row,
  so the composed term at entry (r, q) is the row map of row r at q.
-/
import proofs.«176517_j20693152432611_1_alg».proof.Proof.Gen.ReferenceIdeal.Run
import proofs.«176517_j20693152432611_1_alg».proof.Proof.HostLayer
import Idealize.ShloMosaic.Lib.Pipeline.Value

noncomputable section

namespace Cert.ReferenceIdeal.RefValue

open Cert.ReferenceIdeal Cert.ReferenceIdeal.Gen
open Idealize.ShloMosaic Idealize.ShloMosaic.TcCoe Idealize.SL.Sem Idealize.ShloMosaic.ValueIdx
open Cert.Cross

/-- The slice that starts at row l of a [4, 1024] array, read at entry k of its one row. -/
theorem slice_row (off : Fin 2 → Nat) (l : Fin 4) (hoff : off = ![l.val, 0]) (h : S4x1024.Slices off S1x1024)
    (W : FVec Ideal S4x1024 .f32) :
    (fun k : Fin 1024 => extractStridedSlice S1x1024 off W h (ix2 (0 : Fin 1) k)) = fun k => W (ix2 l k) := by
  subst hoff
  funext k
  refine extractStridedSlice_apply _ W h (ix2 (0 : Fin 1) k) (ix2 l k) (fun a => ?_)
  match a with
  | ⟨0, _⟩ => show l.val = l.val + 0; omega
  | ⟨1, _⟩ => show k.val = 0 + k.val; omega

/-- One host layer with the facts this program states. -/
abbrev layer (x0 : FVec Ideal S16384x1024 .f32) (wr br : FVec Ideal S1x1024 .f32) (cur : FVec Ideal S16384x1024 .f32) :
    FVec Ideal S16384x1024 .f32 :=
  hostLayer reducesTo_S16384x1024_S16384_d1 h_S_ bcast_S16384_S16384x1_0 bcast_S16384x1_S16384x1024_0_1
    shapeCasts_S1x1024_S1024 bcast_S1024_S1x1024_1 bcast_S1x1024_S16384x1024_0_1 x0 wr br cur

/-- The four host layers over the reshaped input, the weights and the biases are the cross network. -/
theorem layers_eq (x0 : FVec Ideal S16384x1024 .f32) (W B : FVec Ideal S4x1024 .f32) :
    layer x0 (extractStridedSlice S1x1024 ![3, 0] W slices_S4x1024_S1x1024_3_0) (extractStridedSlice S1x1024 ![3, 0] B slices_S4x1024_S1x1024_3_0)
      (layer x0 (extractStridedSlice S1x1024 ![2, 0] W slices_S4x1024_S1x1024_2_0) (extractStridedSlice S1x1024 ![2, 0] B slices_S4x1024_S1x1024_2_0)
      (layer x0 (extractStridedSlice S1x1024 ![1, 0] W slices_S4x1024_S1x1024_1_0) (extractStridedSlice S1x1024 ![1, 0] B slices_S4x1024_S1x1024_1_0)
      (layer x0 (extractStridedSlice S1x1024 ![0, 0] W slices_S4x1024_S1x1024_0_0) (extractStridedSlice S1x1024 ![0, 0] B slices_S4x1024_S1x1024_0_0) x0)))
      = crossAll x0 W B := by
  funext i
  obtain ⟨r, q, rfl⟩ : ∃ (r : Fin 16384) (q : Fin 1024), i = ix2 r q := ⟨i 0, i 1, eq_ix2 i⟩
  rw [crossAll_apply]
  unfold layer
  rw [hostLayer_apply, hostLayer_row, hostLayer_row, hostLayer_row]
  rw [slice_row ![3, 0] 3 rfl slices_S4x1024_S1x1024_3_0 W, slice_row ![3, 0] 3 rfl slices_S4x1024_S1x1024_3_0 B,
    slice_row ![2, 0] 2 rfl slices_S4x1024_S1x1024_2_0 W, slice_row ![2, 0] 2 rfl slices_S4x1024_S1x1024_2_0 B,
    slice_row ![1, 0] 1 rfl slices_S4x1024_S1x1024_1_0 W, slice_row ![1, 0] 1 rfl slices_S4x1024_S1x1024_1_0 B,
    slice_row ![0, 0] 0 rfl slices_S4x1024_S1x1024_0_0 W, slice_row ![0, 0] 0 rfl slices_S4x1024_S1x1024_0_0 B]
  rfl

/-- The reference run's result term is the cross network of the reshaped input, the weights and the biases. -/
theorem result_eq (x : FVec Ideal S16384x1x1024 .f32) (W B : FVec Ideal S4x1024 .f32) :
    layer (shapeCast S16384x1024 x shapeCasts_S16384x1x1024_S16384x1024)
        (extractStridedSlice S1x1024 ![3, 0] W slices_S4x1024_S1x1024_3_0) (extractStridedSlice S1x1024 ![3, 0] B slices_S4x1024_S1x1024_3_0)
      (layer (shapeCast S16384x1024 x shapeCasts_S16384x1x1024_S16384x1024)
        (extractStridedSlice S1x1024 ![2, 0] W slices_S4x1024_S1x1024_2_0) (extractStridedSlice S1x1024 ![2, 0] B slices_S4x1024_S1x1024_2_0)
      (layer (shapeCast S16384x1024 x shapeCasts_S16384x1x1024_S16384x1024)
        (extractStridedSlice S1x1024 ![1, 0] W slices_S4x1024_S1x1024_1_0) (extractStridedSlice S1x1024 ![1, 0] B slices_S4x1024_S1x1024_1_0)
      (layer (shapeCast S16384x1024 x shapeCasts_S16384x1x1024_S16384x1024)
        (extractStridedSlice S1x1024 ![0, 0] W slices_S4x1024_S1x1024_0_0) (extractStridedSlice S1x1024 ![0, 0] B slices_S4x1024_S1x1024_0_0)
        (shapeCast S16384x1024 x shapeCasts_S16384x1x1024_S16384x1024))))
      = crossAll (shapeCast S16384x1024 x shapeCasts_S16384x1x1024_S16384x1024) W B :=
  layers_eq _ W B

end Cert.ReferenceIdeal.RefValue

end
-- ==== Proof.lean ====
/-
  The cross network: four layers, each taking the current activations `cur` to
      (row sum of cur) * (w_l * x) + b_l + x,
  starting from `cur = x`, over an input of 16384 rows of 1024 entries, weights and biases of 4 rows.

  The kernel works on tiles of 1024 whole rows, one per grid point; the reference works on the whole array.
  A row of the result depends only on the same row of the input, so both compute the row map of
  Proof/CrossSpec.lean row by row: the kernel because each tile layer, read at an entry, is the row step of that
  entry's row of the tile (Proof/TileLayer.lean) and the tiles' rows are the array's rows, the sixteen row blocks
  covering it (Proof/KernelValue.lean); the reference because each host layer, read at an entry, is the same row
  step of the array's row (Proof/HostLayer.lean, Proof/RefValue.lean).  The lane sum of the kernel and the host's
  sum from a zero initial value are the same finite sum of extended reals; the two programs apply the same
  products and sums in the same order, so no law beyond `0 + s = s` joins them and the inputs' finiteness is
  not used.  The frames of the two kernel programs are the generated ones; the reference's is its generated run.
  The idealization rewrote nothing, so there is nothing to preserve.
-/
import proofs.«176517_j20693152432611_1_alg».proof.Defs
import proofs.«176517_j20693152432611_1_alg».proof.Proof.Gen.Kernel
import proofs.«176517_j20693152432611_1_alg».proof.Proof.Gen.Kernel.Skeleton
import proofs.«176517_j20693152432611_1_alg».proof.Proof.Gen.Kernel.Launch
import proofs.«176517_j20693152432611_1_alg».proof.Proof.Gen.Kernel.Points
import proofs.«176517_j20693152432611_1_alg».proof.Proof.Gen.Kernel.Frame
import proofs.«176517_j20693152432611_1_alg».proof.Proof.Gen.KernelIdeal
import proofs.«176517_j20693152432611_1_alg».proof.Proof.Gen.KernelIdeal.Skeleton
import proofs.«176517_j20693152432611_1_alg».proof.Proof.Gen.KernelIdeal.Launch
import proofs.«176517_j20693152432611_1_alg».proof.Proof.Gen.KernelIdeal.Points
import proofs.«176517_j20693152432611_1_alg».proof.Proof.Gen.KernelIdeal.Frame
import proofs.«176517_j20693152432611_1_alg».proof.Proof.Gen.ReferenceIdeal
import proofs.«176517_j20693152432611_1_alg».proof.Proof.Gen.Pre_finite_inputs
import proofs.«176517_j20693152432611_1_alg».proof.Proof.Gen.KernelIdeal.Value
import proofs.«176517_j20693152432611_1_alg».proof.Proof.Gen.ReferenceIdeal.Run
import proofs.«176517_j20693152432611_1_alg».proof.Proof.KernelValue
import proofs.«176517_j20693152432611_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the cross network of the reshaped input, the weights and the biases, row by row. -/
theorem algebraic : Cert.algebraic_KernelIdeal_ReferenceIdeal := by
  intro m ρ m' ρ' _ hagree
  refine ⟨_, Cert.KernelIdeal.TileValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.result_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
